-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S100000x256 : Shape := ⟨2, ![100000, 256]⟩
abbrev S500000 : Shape := ⟨1, ![500000]⟩
abbrev S25000 : Shape := ⟨1, ![25000]⟩
abbrev S256x256 : Shape := ⟨2, ![256, 256]⟩
abbrev S256 : Shape := ⟨1, ![256]⟩
abbrev S768x256 : Shape := ⟨2, ![768, 256]⟩
abbrev S768 : Shape := ⟨1, ![768]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg10 : FVec F S768 .f32) (main_v33 : IVec S_ 1) : IVec S_ 1 :=
  let main_v34 : FVec F S768 .f32 := Host.absf main_arg10
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg7 : FVec F S768x256 .f32) (main_arg8 : FVec F S768 .f32) (main_arg9 : FVec F S768x256 .f32) (main_arg10 : FVec F S768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S768x256 .f32 := Host.absf main_arg7
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S768 .f32 := Host.absf main_arg8
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x256 .f32 := Host.absf main_arg9
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg10 main_v33

def fn {F : FTy → Type} [FloatOps F] (main_arg0 : FVec F S50000x256 .f32) (main_arg1 : FVec F S100000x256 .f32) (main_arg2 : IVec S500000 32) (main_arg3 : IVec S500000 32) (main_arg4 : IVec S25000 32) (main_arg5 : FVec F S256x256 .f32) (main_arg6 : FVec F S256 .f32) (main_arg7 : FVec F S768x256 .f32) (main_arg8 : FVec F S768 .f32) (main_arg9 : FVec F S768x256 .f32) (main_arg10 : FVec F S768 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x256 .f32 := Host.absf main_arg5
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_v13 main_v16
-- ==== Kernel.lean ====
abbrev S50000x256 : Shape := ⟨2, ![50000, 256]⟩
abbrev S100000x256 : Shape := ⟨2, ![100000, 256]⟩
abbrev S500000 : Shape := ⟨1, ![500000]⟩
abbrev S25000 : Shape := ⟨1, ![25000]⟩
abbrev S256x256 : Shape := ⟨2, ![256, 256]⟩
abbrev S256 : Shape := ⟨1, ![256]⟩
abbrev S768x256 : Shape := ⟨2, ![768, 256]⟩
abbrev S768 : Shape := ⟨1, ![768]⟩
abbrev S_ : Shape := ⟨0, ![]⟩
abbrev S500000x1 : Shape := ⟨2, ![500000, 1]⟩
abbrev S500000x256 : Shape := ⟨2, ![500000, 256]⟩
abbrev S1x256 : Shape := ⟨2, ![1, 256]⟩
abbrev S5000x256 : Shape := ⟨2, ![5000, 256]⟩
abbrev S50000 : Shape := ⟨1, ![50000]⟩
abbrev S50000x1 : Shape := ⟨2, ![50000, 1]⟩
abbrev S256x768 : Shape := ⟨2, ![256, 768]⟩
abbrev S1x768 : Shape := ⟨2, ![1, 768]⟩
abbrev S2000x256 : Shape := ⟨2, ![2000, 256]⟩
abbrev S2000x768 : Shape := ⟨2, ![2000, 768]⟩
abbrev S25000x1 : Shape := ⟨2, ![25000, 1]⟩

abbrev nBuf : Space → Nat
  | .hbm => 69
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S100000x256, .f32⟩
  | .hbm, ⟨2, _⟩ => ⟨S500000, .i32⟩
  | .hbm, ⟨3, _⟩ => ⟨S500000, .i32⟩
  | .hbm, ⟨4, _⟩ => ⟨S25000, .i32⟩
  | .hbm, ⟨5, _⟩ => ⟨S256x256, .f32⟩
  | .hbm, ⟨6, _⟩ => ⟨S256, .f32⟩
  | .hbm, ⟨7, _⟩ => ⟨S768x256, .f32⟩
  | .hbm, ⟨8, _⟩ => ⟨S768, .f32⟩
  | .hbm, ⟨9, _⟩ => ⟨S768x256, .f32⟩
  | .hbm, ⟨10, _⟩ => ⟨S768, .f32⟩
  | .hbm, ⟨11, _⟩ => ⟨S100000x256, .bf16⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x256, .bf16⟩
  | .hbm, ⟨21, _⟩ => ⟨S256x256, .f32⟩
  | .hbm, ⟨22, _⟩ => ⟨S256x256, .bf16⟩
  | .hbm, ⟨23, _⟩ => ⟨S1x256, .f32⟩
  | .hbm, ⟨24, _⟩ => ⟨S500000x256, .f32⟩
  | .hbm, ⟨25, _⟩ => ⟨S_, .f32⟩
  | .hbm, ⟨26, _⟩ => ⟨S50000x256, .f32⟩
  | .hbm, ⟨27, _⟩ => ⟨S500000x1, .i32⟩
  | .hbm, ⟨28, _⟩ => ⟨S50000x256, .f32⟩
  | .hbm, ⟨29, _⟩ => ⟨S_, .f32⟩
  | .hbm, ⟨30, _⟩ => ⟨S500000, .f32⟩
  | .hbm, ⟨31, _⟩ => ⟨S_, .f32⟩
  | .hbm, ⟨32, _⟩ => ⟨S50000, .f32⟩
  | .hbm, ⟨33, _⟩ => ⟨S500000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x256, .f32⟩
  | .hbm, ⟨40, _⟩ => ⟨S50000x256, .f32⟩
  | .hbm, ⟨41, _⟩ => ⟨S256x768, .f32⟩
  | .hbm, ⟨42, _⟩ => ⟨S256x768, .bf16⟩
  | .hbm, ⟨43, _⟩ => ⟨S256x768, .f32⟩
  | .hbm, ⟨44, _⟩ => ⟨S256x768, .bf16⟩
  | .hbm, ⟨45, _⟩ => ⟨S1x768, .f32⟩
  | .hbm, ⟨46, _⟩ => ⟨S1x768, .f32⟩
  | .hbm, ⟨47, _⟩ => ⟨S50000x256, .f32⟩
  | .hbm, ⟨48, _⟩ => ⟨S_, .f32⟩
  | .hbm, ⟨49, _⟩ => ⟨S50000x1, .f32⟩
  | .hbm, ⟨50, _⟩ => ⟨S_, .i32⟩
  | .hbm, ⟨51, _⟩ => ⟨S25000, .i32⟩
  | .hbm, ⟨52, _⟩ => ⟨S25000, .i1⟩
  | .hbm, ⟨53, _⟩ => ⟨S_, .i32⟩
  | .hbm, ⟨54, _⟩ => ⟨S25000, .i32⟩
  | .hbm, ⟨55, _⟩ => ⟨S25000, .i32⟩
  | .hbm, ⟨56, _⟩ => ⟨S25000, .i32⟩
  | .hbm, ⟨57, _⟩ => ⟨S25000x1, .i32⟩
  | .hbm, ⟨58, _⟩ => ⟨S_, .f32⟩
  | .hbm, ⟨59, _⟩ => ⟨S25000x1, .f32⟩
  | .hbm, ⟨60, _⟩ => ⟨S50000x1, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x1, .f32⟩
  | .hbm, ⟨65, _⟩ => ⟨S50000x1, .f32⟩
  | .hbm, ⟨66, _⟩ => ⟨S50000x256, .f32⟩
  | .hbm, ⟨67, _⟩ => ⟨S50000x256, .f32⟩
  | .hbm, ⟨68, _⟩ => ⟨S50000x256, .f32⟩
  | .local _ .vmem, ⟨0, _⟩ => ⟨S5000x256, .bf16⟩
  | .local _ .vmem, ⟨1, _⟩ => ⟨S5000x256, .bf16⟩
  | .local _ .vmem, ⟨2, _⟩ => ⟨S256x256, .bf16⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x768, .bf16⟩
  | .local _ .vmem, ⟨11, _⟩ => ⟨S1x768, .f32⟩
  | .local _ .vmem, ⟨12, _⟩ => ⟨S256x768, .bf16⟩
  | .local _ .vmem, ⟨13, _⟩ => ⟨S1x768, .f32⟩
  | .local _ .vmem, ⟨14, _⟩ => ⟨S2000x256, .f32⟩
  | .local _ .vmem, ⟨15, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x768 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  transposes_S256x256_S256x256_1_0 : S256x256.Transposes [1, 0] S256x256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S768x256_S256x768_1_0 : S768x256.Transposes [1, 0] S256x768
  shapeCasts_S768_S1x768 : S768.ShapeCasts S1x768
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  slices_S2000x768_o0_0_S2000x256 : S2000x768.Slices ![0, 0] S2000x256
  slices_S2000x768_o0_256_S2000x256 : S2000x768.Slices ![0, 256] S2000x256
  slices_S2000x768_o0_512_S2000x256 : S2000x768.Slices ![0, 512] S2000x256
  bcast_S_S50000x1 : S_.BroadcastsInDim S50000x1 (![] : Fin 0 → Fin S50000x1.rank)
  bcast_S_S25000 : S_.BroadcastsInDim S25000 (![] : Fin 0 → Fin S25000.rank)
  bcast_S25000_S25000x1_0 : S25000.BroadcastsInDim S25000x1 (![0] : Fin 1 → Fin S25000x1.rank)
  bcast_S_S25000x1 : S_.BroadcastsInDim S25000x1 (![] : Fin 0 → Fin S25000x1.rank)
  gather_S100000x256_S500000x1_S500000x256_1_0_n_n_0_1_1256_wf : GatherDims.WF S100000x256 S500000x1 S500000x256 [1] [0] [] [0] [] 1 ![1, 256]
  dot_S5000x256_S256x256_S5000x256_1_0_0_1_n_n_wf : DotDims.WF S5000x256 S256x256 S5000x256 [1] [0] [0] [1] [] []
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S2000x256_S256x768_S2000x768_1_0_0_1_n_n_wf : DotDims.WF S2000x256 S256x768 S2000x768 [1] [0] [0] [1] [] []
  scatter_S50000x1_S25000x1_S25000x1_1_0_0_1_wf : ScatterDims.WF S50000x1 S25000x1 S25000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S500000x256.size a
  hwx0_0 : ∀ i : grid0.Coords, EltTy.bits .bf16 = 32 ∨ (Rect.block (s := S500000x256) S5000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S500000x256.size a
  hwx0_3 : ∀ i : grid0.Coords, EltTy.bits .f32 = 32 ∨ (Rect.block (s := S500000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x768.size a ≤ S256x768.size a
  hwx1_2 : ∀ i : grid1.Coords, EltTy.bits .bf16 = 32 ∨ (Rect.block (s := S256x768) S256x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x768.size a ≤ S256x768.size a
  hwx1_4 : ∀ i : grid1.Coords, EltTy.bits .bf16 = 32 ∨ (Rect.block (s := S256x768) S256x768.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S2000x256_S256x768_S2000x768_1_0_0_1_n_n : DotDims S2000x256 S256x768 S2000x768 where
  lhsContracting := [1]
  rhsContracting := [0]
  lhsNonContracting := [0]
  rhsNonContracting := [1]
  lhsBatch := []
  rhsBatch := []
  wf := dot_S2000x256_S256x768_S2000x768_1_0_0_1_n_n_wf
def scatter_S50000x1_S25000x1_S25000x1_1_0_0_1 : ScatterDims S50000x1 S25000x1 S25000x1 where
  updateWindowDims := [1]
  insertedWindowDims := [0]
  scatterDimsToOperandDims := [0]
  indexVectorDim := 1
  wf := scatter_S50000x1_S25000x1_S25000x1_1_0_0_1_wf

abbrev win0_0 : Pipeline.Window sig grid0 :=
  Pipeline.Window.ofSpec (Memref.whole main_v7) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S256x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S256x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x256 : Shape := ⟨2, ![50000, 256]⟩
abbrev S100000x256 : Shape := ⟨2, ![100000, 256]⟩
abbrev S500000 : Shape := ⟨1, ![500000]⟩
abbrev S25000 : Shape := ⟨1, ![25000]⟩
abbrev S256x256 : Shape := ⟨2, ![256, 256]⟩
abbrev S256 : Shape := ⟨1, ![256]⟩
abbrev S768x256 : Shape := ⟨2, ![768, 256]⟩
abbrev S768 : Shape := ⟨1, ![768]⟩
abbrev S_ : Shape := ⟨0, ![]⟩
abbrev S500000x1 : Shape := ⟨2, ![500000, 1]⟩
abbrev S500000x256 : Shape := ⟨2, ![500000, 256]⟩
abbrev S1x256 : Shape := ⟨2, ![1, 256]⟩
abbrev S50000 : Shape := ⟨1, ![50000]⟩
abbrev S50000x1 : Shape := ⟨2, ![50000, 1]⟩
abbrev S256x768 : Shape := ⟨2, ![256, 768]⟩
abbrev S50000x768 : Shape := ⟨2, ![50000, 768]⟩
abbrev S1x768 : Shape := ⟨2, ![1, 768]⟩
abbrev S25000x1 : Shape := ⟨2, ![25000, 1]⟩

abbrev nBuf : Space → Nat
  | .hbm => 108
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S100000x256, .f32⟩
  | .hbm, ⟨2, _⟩ => ⟨S500000, .i32⟩
  | .hbm, ⟨3, _⟩ => ⟨S500000, .i32⟩
  | .hbm, ⟨4, _⟩ => ⟨S25000, .i32⟩
  | .hbm, ⟨5, _⟩ => ⟨S256x256, .f32⟩
  | .hbm, ⟨6, _⟩ => ⟨S256, .f32⟩
  | .hbm, ⟨7, _⟩ => ⟨S768x256, .f32⟩
  | .hbm, ⟨8, _⟩ => ⟨S768, .f32⟩
  | .hbm, ⟨9, _⟩ => ⟨S768x256, .f32⟩
  | .hbm, ⟨10, _⟩ => ⟨S768, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x256, .f32⟩
  | .hbm, ⟨20, _⟩ => ⟨S256x256, .f32⟩
  | .hbm, ⟨21, _⟩ => ⟨S500000x256, .f32⟩
  | .hbm, ⟨22, _⟩ => ⟨S1x256, .f32⟩
  | .hbm, ⟨23, _⟩ => ⟨S500000x256, .f32⟩
  | .hbm, ⟨24, _⟩ => ⟨S500000x256, .f32⟩
  | .hbm, ⟨25, _⟩ => ⟨S_, .f32⟩
  | .hbm, ⟨26, _⟩ => ⟨S500000x256, .f32⟩
  | .hbm, ⟨27, _⟩ => ⟨S500000x256, .f32⟩
  | .hbm, ⟨28, _⟩ => ⟨S_, .f32⟩
  | .hbm, ⟨29, _⟩ => ⟨S50000x256, .f32⟩
  | .hbm, ⟨30, _⟩ => ⟨S500000x1, .i32⟩
  | .hbm, ⟨31, _⟩ => ⟨S50000x256, .f32⟩
  | .hbm, ⟨32, _⟩ => ⟨S_, .f32⟩
  | .hbm, ⟨33, _⟩ => ⟨S500000, .f32⟩
  | .hbm, ⟨34, _⟩ => ⟨S_, .f32⟩
  | .hbm, ⟨35, _⟩ => ⟨S50000, .f32⟩
  | .hbm, ⟨36, _⟩ => ⟨S500000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x256, .f32⟩
  | .hbm, ⟨43, _⟩ => ⟨S50000x256, .f32⟩
  | .hbm, ⟨44, _⟩ => ⟨S256x768, .f32⟩
  | .hbm, ⟨45, _⟩ => ⟨S50000x768, .f32⟩
  | .hbm, ⟨46, _⟩ => ⟨S1x768, .f32⟩
  | .hbm, ⟨47, _⟩ => ⟨S50000x768, .f32⟩
  | .hbm, ⟨48, _⟩ => ⟨S50000x768, .f32⟩
  | .hbm, ⟨49, _⟩ => ⟨S256x768, .f32⟩
  | .hbm, ⟨50, _⟩ => ⟨S50000x768, .f32⟩
  | .hbm, ⟨51, _⟩ => ⟨S1x768, .f32⟩
  | .hbm, ⟨52, _⟩ => ⟨S50000x768, .f32⟩
  | .hbm, ⟨53, _⟩ => ⟨S50000x768, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S_, .f32⟩
  | .hbm, ⟨88, _⟩ => ⟨S50000x1, .f32⟩
  | .hbm, ⟨89, _⟩ => ⟨S_, .i32⟩
  | .hbm, ⟨90, _⟩ => ⟨S25000, .i32⟩
  | .hbm, ⟨91, _⟩ => ⟨S25000, .i1⟩
  | .hbm, ⟨92, _⟩ => ⟨S_, .i32⟩
  | .hbm, ⟨93, _⟩ => ⟨S25000, .i32⟩
  | .hbm, ⟨94, _⟩ => ⟨S25000, .i32⟩
  | .hbm, ⟨95, _⟩ => ⟨S25000, .i32⟩
  | .hbm, ⟨96, _⟩ => ⟨S25000x1, .i32⟩
  | .hbm, ⟨97, _⟩ => ⟨S_, .f32⟩
  | .hbm, ⟨98, _⟩ => ⟨S25000x1, .f32⟩
  | .hbm, ⟨99, _⟩ => ⟨S50000x1, .f32⟩
  | .hbm, ⟨100, _⟩ => ⟨S50000x256, .f32⟩
  | .hbm, ⟨101, _⟩ => ⟨S50000x256, .f32⟩
  | .hbm, ⟨102, _⟩ => ⟨S_, .f32⟩
  | .hbm, ⟨103, _⟩ => ⟨S50000x1, .f32⟩
  | .hbm, ⟨104, _⟩ => ⟨S50000x1, .f32⟩
  | .hbm, ⟨105, _⟩ => ⟨S50000x256, .f32⟩
  | .hbm, ⟨106, _⟩ => ⟨S50000x256, .f32⟩
  | .hbm, ⟨107, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_c_10 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  transposes_S256x256_S256x256_1_0 : S256x256.Transposes [1, 0] S256x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S768x256_S256x768_1_0 : S768x256.Transposes [1, 0] S256x768
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  slices_S50000x768_S50000x256_0_0 : S50000x768.Slices ![0, 0] S50000x256
  slices_S50000x768_S50000x256_0_256 : S50000x768.Slices ![0, 256] S50000x256
  slices_S50000x768_S50000x256_0_512 : S50000x768.Slices ![0, 512] S50000x256
  bcast_S_S50000x1 : S_.BroadcastsInDim S50000x1 (![] : Fin 0 → Fin S50000x1.rank)
  bcast_S_S25000 : S_.BroadcastsInDim S25000 (![] : Fin 0 → Fin S25000.rank)
  bcast_S25000_S25000x1_0 : S25000.BroadcastsInDim S25000x1 (![0] : Fin 1 → Fin S25000x1.rank)
  bcast_S_S25000x1 : S_.BroadcastsInDim S25000x1 (![] : Fin 0 → Fin S25000x1.rank)
  gather_S100000x256_S500000x1_S500000x256_1_0_n_n_0_1_1256_wf : GatherDims.WF S100000x256 S500000x1 S500000x256 [1] [0] [] [0] [] 1 ![1, 256]
  dot_S500000x256_S256x256_S500000x256_1_0_0_1_n_n_wf : DotDims.WF S500000x256 S256x256 S500000x256 [1] [0] [0] [1] [] []
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S50000x256_S256x768_S50000x768_1_0_0_1_n_n_wf : DotDims.WF S50000x256 S256x768 S50000x768 [1] [0] [0] [1] [] []
  scatter_S50000x1_S25000x1_S25000x1_1_0_0_1_wf : ScatterDims.WF S50000x1 S25000x1 S25000x1 [1] [0] [0] 1

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x256_S256x768_S50000x768_1_0_0_1_n_n : DotDims S50000x256 S256x768 S50000x768 where
  lhsContracting := [1]
  rhsContracting := [0]
  lhsNonContracting := [0]
  rhsNonContracting := [1]
  lhsBatch := []
  rhsBatch := []
  wf := dot_S50000x256_S256x768_S50000x768_1_0_0_1_n_n_wf
def scatter_S50000x1_S25000x1_S25000x1_1_0_0_1 : ScatterDims S50000x1 S25000x1 S25000x1 where
  updateWindowDims := [1]
  insertedWindowDims := [0]
  scatterDimsToOperandDims := [0]
  indexVectorDim := 1
  wf := scatter_S50000x1_S25000x1_S25000x1_1_0_0_1_wf

class Facts : Prop extends Facts₀ where

variable [Facts]
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.LibConcatRows.lean ====
/-
  Rows placed end to end, and the concatenation of two, three or four matrices along their column axis read at one
  element: row e, column k of the joined matrix is column k of the joined rows e of the pieces.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.LibConcatRows

variable {α : Type}

/-- Two rows end to end. -/
def catRow2 {A B : ℕ} (a : Fin A → α) (b : Fin B → α) : Fin (A + B) → α := fun k =>
  if h : k.val < A then a ⟨k.val, h⟩ else b ⟨k.val - A, by have := k.isLt; omega⟩

/-- Three rows end to end. -/
def catRow3 {A B C : ℕ} (a : Fin A → α) (b : Fin B → α) (c : Fin C → α) : Fin (A + B + C) → α := fun k =>
  if h : k.val < A then a ⟨k.val, h⟩
  else if h2 : k.val < A + B then b ⟨k.val - A, by omega⟩
  else c ⟨k.val - (A + B), by have := k.isLt; omega⟩

/-- Four rows end to end. -/
def catRow4 {A B C D : ℕ} (a : Fin A → α) (b : Fin B → α) (c : Fin C → α) (d : Fin D → α) :
    Fin (A + B + C + D) → α := fun k =>
  if h : k.val < A then a ⟨k.val, h⟩
  else if h2 : k.val < A + B then b ⟨k.val - A, by omega⟩
  else if h3 : k.val < A + B + C then c ⟨k.val - (A + B), by omega⟩
  else d ⟨k.val - (A + B + C), by have := k.isLt; omega⟩

/-- The joined matrix read at row e and a column k lying in piece number p (which starts at column `pre`): piece p at
    row e and column k - pre, written as a column q of the piece with pre + q = k. -/
theorem concat_rows_piece {M N W : ℕ} (xs : List ((s : Shape) × (s.Idx → α)))
    (h : Shape.Concatenates (xs.map (·.1)) ⟨2, ![M, N]⟩ (1 : Fin 2))
    (p : ℕ) (hp : p < xs.length) (x : (⟨2, ![M, W]⟩ : Shape).Idx → α) (hx : xs[p] = ⟨⟨2, ![M, W]⟩, x⟩)
    (pre : ℕ)
    (hpre : (((xs.take p).map (·.1)).map fun s : Shape =>
      if h : s.rank = (⟨2, ![M, N]⟩ : Shape).rank then s.size ((1 : Fin 2).cast h.symm) else 0).sum = pre)
    (e : Fin M) (k : Fin N) (q : Fin W) (hq : pre + q.val = k.val) :
    concatenate (⟨2, ![M, N]⟩ : Shape) (1 : Fin 2) xs h (ix2 e k) = x (ix2 e q) := by
  refine concatenate_apply_piece (t := ⟨2, ![M, N]⟩) (1 : Fin 2) xs h (ix2 e k) p hp _ x hx rfl pre hpre (ix2 e q) ?_ ?_
  · intro b hb
    match b with
    | ⟨0, _⟩ => rfl
    | ⟨1, _⟩ => exact absurd rfl hb
  · exact hq

/-- Two matrices joined along the columns, at row e and column k. -/
theorem concat2_rows {M A B : ℕ} (xa : (⟨2, ![M, A]⟩ : Shape).Idx → α) (xb : (⟨2, ![M, B]⟩ : Shape).Idx → α)
    (h : Shape.Concatenates (([⟨⟨2, ![M, A]⟩, xa⟩, ⟨⟨2, ![M, B]⟩, xb⟩] : List ((s : Shape) × (s.Idx → α))).map (·.1))
      ⟨2, ![M, A + B]⟩ (1 : Fin 2))
    (e : Fin M) (k : Fin (A + B)) :
    concatenate (⟨2, ![M, A + B]⟩ : Shape) (1 : Fin 2) [⟨⟨2, ![M, A]⟩, xa⟩, ⟨⟨2, ![M, B]⟩, xb⟩] h (ix2 e k)
      = catRow2 (fun i => xa (ix2 e i)) (fun i => xb (ix2 e i)) k := by
  unfold catRow2
  split_ifs with h1
  · exact concat_rows_piece _ h 0 (by simp) xa rfl 0 (by simp) e k ⟨k.val, h1⟩ (by simp)
  · exact concat_rows_piece _ h 1 (by simp) xb rfl A (by simp) e k ⟨k.val - A, by have := k.isLt; omega⟩
      (by simp only; omega)

/-- Three matrices joined along the columns, at row e and column k. -/
theorem concat3_rows {M A B C : ℕ} (xa : (⟨2, ![M, A]⟩ : Shape).Idx → α) (xb : (⟨2, ![M, B]⟩ : Shape).Idx → α)
    (xc : (⟨2, ![M, C]⟩ : Shape).Idx → α)
    (h : Shape.Concatenates (([⟨⟨2, ![M, A]⟩, xa⟩, ⟨⟨2, ![M, B]⟩, xb⟩, ⟨⟨2, ![M, C]⟩, xc⟩] : List ((s : Shape) × (s.Idx → α))).map (·.1))
      ⟨2, ![M, A + B + C]⟩ (1 : Fin 2))
    (e : Fin M) (k : Fin (A + B + C)) :
    concatenate (⟨2, ![M, A + B + C]⟩ : Shape) (1 : Fin 2) [⟨⟨2, ![M, A]⟩, xa⟩, ⟨⟨2, ![M, B]⟩, xb⟩, ⟨⟨2, ![M, C]⟩, xc⟩] h (ix2 e k)
      = catRow3 (fun i => xa (ix2 e i)) (fun i => xb (ix2 e i)) (fun i => xc (ix2 e i)) k := by
  unfold catRow3
  split_ifs with h1 h2
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k
      ⟨k.val - (A + B), by have := k.isLt; omega⟩ (by simp only; omega)

/-- Four matrices joined along the columns, at row e and column k. -/
theorem concat4_rows {M A B C D : ℕ} (xa : (⟨2, ![M, A]⟩ : Shape).Idx → α) (xb : (⟨2, ![M, B]⟩ : Shape).Idx → α)
    (xc : (⟨2, ![M, C]⟩ : Shape).Idx → α) (xd : (⟨2, ![M, D]⟩ : Shape).Idx → α)
    (h : Shape.Concatenates (([⟨⟨2, ![M, A]⟩, xa⟩, ⟨⟨2, ![M, B]⟩, xb⟩, ⟨⟨2, ![M, C]⟩, xc⟩, ⟨⟨2, ![M, D]⟩, xd⟩] : List ((s : Shape) × (s.Idx → α))).map (·.1))
      ⟨2, ![M, A + B + C + D]⟩ (1 : Fin 2))
    (e : Fin M) (k : Fin (A + B + C + D)) :
    concatenate (⟨2, ![M, A + B + C + D]⟩ : Shape) (1 : Fin 2)
        [⟨⟨2, ![M, A]⟩, xa⟩, ⟨⟨2, ![M, B]⟩, xb⟩, ⟨⟨2, ![M, C]⟩, xc⟩, ⟨⟨2, ![M, D]⟩, xd⟩] h (ix2 e k)
      = catRow4 (fun i => xa (ix2 e i)) (fun i => xb (ix2 e i)) (fun i => xc (ix2 e i)) (fun i => xd (ix2 e i)) k := by
  unfold catRow4
  split_ifs with h1 h2 h3
  · exact concat_rows_piece _ h 0 (by simp) xa rfl 0 (by simp) e k ⟨k.val, h1⟩ (by simp)
  · exact concat_rows_piece _ h 1 (by simp) xb rfl A (by simp) e k ⟨k.val - A, by omega⟩ (by simp only; omega)
  · exact concat_rows_piece _ h 2 (by simp) xc rfl (A + B) (by simp) e k ⟨k.val - (A + B), by omega⟩
      (by simp only; omega)
  · exact concat_rows_piece _ h 3 (by simp) xd rfl (A + B + C) (by simp [Nat.add_assoc]) e k
      ⟨k.val - (A + B + C), by have := k.isLt; omega⟩ (by simp only; omega)

end Cert.LibConcatRows

end
-- ==== Proof.LibMlpRows.lean ====
/-
  A three-layer perceptron applied to one row of a matrix, over the extended reals: an affine layer is the row times a
  weight matrix plus a bias row, the activation is the maximum with a threshold, and the network is
  affine, activation, affine, activation, affine. The two ways a program spells one affine layer of a whole matrix are
  read at one element: the matrix unit's product accumulated into the zero matrix with the bias kept as a one-row matrix
  and broadcast over the rows, and the host's product with the bias kept as a vector, broadcast first to one row and then
  over the rows. Both are the same sum over the contracted coordinate plus the bias entry of the column.
-/
import Idealize.ShloMosaic.PureOps.Ideal.Laws
import Idealize.ShloMosaic.Lib.ValueIdx
import Idealize.ShloMosaic.Lib.Pipeline.Value
import proofs.«133819_j90022514524503_1_alg».proof.Proof.LibPlainMatmul
import proofs.«133819_j90022514524503_1_alg».proof.Proof.LibConcatRows

noncomputable section

open Idealize.ShloMosaic Idealize.ShloMosaic.ValueIdx

namespace Cert.LibMlpRows

/-- One affine layer on a row: entry j is ∑ₖ xₖ · w(k, j) + bⱼ. -/
def layer {K N : ℕ} (x : Fin K → EReal) (w : Fin K → Fin N → EReal) (b : Fin N → EReal) : Fin N → EReal :=
  fun j => (∑ k : Fin K, x k * w k j) + b j

/-- The activation: each entry's maximum with the threshold z. -/
def act {N : ℕ} (z : EReal) (v : Fin N → EReal) : Fin N → EReal := fun j => max (v j) z

/-- Affine, activation, affine, activation, affine. -/
def mlp3 {K H₁ H₂ N : ℕ} (z : EReal) (x : Fin K → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) : Fin N → EReal :=
  layer (act z (layer (act z (layer x w₁ b₁)) w₂ b₂)) w₃ b₃

/-- The matrix unit's layer: the product into a zero accumulator plus a one-row bias broadcast over the rows, at row e
    and column j. -/
theorem unit_layer_apply {M K N : ℕ} {φ₁ φ₂ : FTy} (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (e : Fin M) (j : Fin N) :
    addf (matmul (DotDims.plain M K N) none x w (constant (⟨2, ![M, N]⟩ : Shape) .f32 0x00000000#32))
        (broadcastTo (⟨2, ![M, N]⟩ : Shape) b hb) (ix2 e j)
      = layer (fun k => x (ix2 e k)) (fun k n => w (ix2 k n)) (fun n => b (ix2 (0 : Fin 1) n)) j := by
  rw [addf_apply, Cert.LibPlainMatmul.matmul_plain_apply]
  unfold layer
  congr 1
  refine broadcastTo_apply b hb (ix2 e j) (ix2 (0 : Fin 1) j) fun a => ?_
  match a with
  | ⟨0, _⟩ => rfl
  | ⟨1, _⟩ =>
    show j.val = if N = 1 then 0 else j.val
    split_ifs with h1
    · have := j.isLt; omega
    · rfl

/-- The host's layer: the product plus a bias vector broadcast to one row and then over the rows, at row e and column j. -/
theorem host_layer_apply {M K N : ℕ} {φ₁ φ₂ : FTy} (x : FVec Ideal ⟨2, ![M, K]⟩ φ₁) (w : FVec Ideal ⟨2, ![K, N]⟩ φ₂)
    (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) (e : Fin M) (j : Fin N) :
    addf (Host.dotGeneral (DotDims.plain M K N) none x w)
        (broadcastInDim (⟨2, ![M, N]⟩ : Shape) ![0, 1] h₂ (broadcastInDim (⟨2, ![1, N]⟩ : Shape) ![1] h₁ b)) (ix2 e j)
      = layer (fun k => x (ix2 e k)) (fun k n => w (ix2 k n)) (fun n => b (ix1 n)) j := by
  rw [addf_apply, Cert.LibPlainMatmul.dotGeneral_plain_apply]
  unfold layer
  congr 1
  refine (broadcastInDim_apply ![0, 1] h₂ _ (ix2 e j) (ix2 (0 : Fin 1) j) fun a => ?_).trans
    (broadcastInDim_apply ![1] h₁ b (ix2 (0 : Fin 1) j) (ix1 j) fun a => ?_)
  · match a with
    | ⟨0, _⟩ => rfl
    | ⟨1, _⟩ =>
      show j.val = if N = 1 then 0 else j.val
      split_ifs with h1
      · have := j.isLt; omega
      · rfl
  · match a with
    | ⟨0, _⟩ =>
      show j.val = if N = 1 then 0 else j.val
      split_ifs with h1
      · have := j.isLt; omega
      · rfl

/-- The activation of a matrix against a splat threshold, at one element. -/
theorem act_apply {s : Shape} {φ : FTy} (v : FVec Ideal s φ) (z : Ideal φ) (i : s.Idx) :
    maximumf v (broadcast s z) i = max (v i) z := rfl

/-- The network applied to every row of a matrix. -/
def mlpRows {M K H₁ H₂ N : ℕ} (z : EReal) (x : (⟨2, ![M, K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) : (⟨2, ![M, N]⟩ : Shape).Idx → EReal :=
  fun i => mlp3 z (fun k => x (ix2 (n0 := M) (i 0) k)) w₁ b₁ w₂ b₂ w₃ b₃ (i 1)

theorem mlpRows_ix2 {M K H₁ H₂ N : ℕ} (z : EReal) (x : (⟨2, ![M, K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal) (e : Fin M) (j : Fin N) :
    mlpRows z x w₁ b₁ w₂ b₂ w₃ b₃ (ix2 e j) = mlp3 z (fun k => x (ix2 e k)) w₁ b₁ w₂ b₂ w₃ b₃ j := rfl

/-- Two matrices of 64 columns each side by side: row e of the result is row e of the first followed by row e of the
    second. -/
def joinRows64 {M : ℕ} (a b : (⟨2, ![M, 64]⟩ : Shape).Idx → EReal) : (⟨2, ![M, 128]⟩ : Shape).Idx → EReal :=
  fun i => if h : (i 1).val < 64 then a (ix2 (n0 := M) (i 0) ⟨(i 1).val, h⟩)
    else b (ix2 (n0 := M) (i 0) ⟨(i 1).val - 64, by have := idx2_lt1 i; omega⟩)

/-- The join of two 64-column matrices along the columns is `joinRows64`. -/
theorem concatenate_eq_joinRows64 {M : ℕ} (a b : (⟨2, ![M, 64]⟩ : Shape).Idx → EReal)
    (h : Shape.Concatenates (([⟨⟨2, ![M, 64]⟩, a⟩, ⟨⟨2, ![M, 64]⟩, b⟩] : List ((s : Shape) × (s.Idx → EReal))).map (·.1))
      ⟨2, ![M, 128]⟩ (1 : Fin 2)) :
    concatenate (⟨2, ![M, 128]⟩ : Shape) (1 : Fin 2) [⟨⟨2, ![M, 64]⟩, a⟩, ⟨⟨2, ![M, 64]⟩, b⟩] h = joinRows64 a b := by
  funext i
  obtain ⟨e, k, rfl⟩ : ∃ (e : Fin M) (k : Fin 128), i = ix2 e k := ⟨i 0, i 1, eq_ix2 i⟩
  unfold joinRows64
  split_ifs with h1
  · exact Cert.LibConcatRows.concat_rows_piece _ h 0 (by simp) a rfl 0 (by simp) e k ⟨k.val, h1⟩ (by simp)
  · exact Cert.LibConcatRows.concat_rows_piece _ h 1 (by simp) b rfl 64 (by simp) e k
      ⟨k.val - 64, by have := k.isLt; omega⟩ (by simp only; have : ¬ k.val < 64 := h1; omega)

/-- A splat of a constant word over any shape, at one element: the word's value. -/
theorem splat_const_apply {t : Shape} (h : (⟨0, ![]⟩ : Shape).BroadcastsInDim t ![]) (w : BitVec 32) (i : t.Idx) :
    broadcastInDim t ![] h (constant (F := Ideal) (⟨0, ![]⟩ : Shape) .f32 w) i = Ideal.ofBits .f32 w :=
  (broadcastInDim_apply ![] h _ i ix0 (fun a => a.elim0)).trans rfl

/-- The network on the rows of a matrix x, at an element y, is the network on the rows of a matrix X at an element i,
    when row y₀ of x is row i₀ of X and the two elements are in the same column. -/
theorem mlpRows_block {M M' K H₁ H₂ N : ℕ} (z : EReal) (X : (⟨2, ![M, K]⟩ : Shape).Idx → EReal)
    (x : (⟨2, ![M', K]⟩ : Shape).Idx → EReal)
    (w₁ : Fin K → Fin H₁ → EReal) (b₁ : Fin H₁ → EReal)
    (w₂ : Fin H₁ → Fin H₂ → EReal) (b₂ : Fin H₂ → EReal)
    (w₃ : Fin H₂ → Fin N → EReal) (b₃ : Fin N → EReal)
    (y : (⟨2, ![M', N]⟩ : Shape).Idx) (i : (⟨2, ![M, N]⟩ : Shape).Idx)
    (hrow : ∀ k : Fin K, x (ix2 (n0 := M') (y 0) k) = X (ix2 (n0 := M) (i 0) k)) (hcol : (y 1).val = (i 1).val) :
    mlpRows z x w₁ b₁ w₂ b₂ w₃ b₃ y = mlpRows z X w₁ b₁ w₂ b₂ w₃ b₃ i := by
  unfold mlpRows
  have hx : (fun k => x (ix2 (n0 := M') (y 0) k)) = fun k => X (ix2 (n0 := M) (i 0) k) := funext hrow
  rw [hx]
  exact congrArg _ (Fin.ext hcol)

/-- Row r of the join of a and b is row R of the join of A and B when the rows of the pieces are. -/
theorem joinRows64_block {M M' : ℕ} (A B : (⟨2, ![M, 64]⟩ : Shape).Idx → EReal) (a b : (⟨2, ![M', 64]⟩ : Shape).Idx → EReal)
    (r : Fin M') (R : Fin M) (ha : ∀ q : Fin 64, a (ix2 r q) = A (ix2 R q)) (hb : ∀ q : Fin 64, b (ix2 r q) = B (ix2 R q))
    (k : Fin 128) : joinRows64 a b (ix2 r k) = joinRows64 A B (ix2 R k) := by
  show (if h : k.val < 64 then a (ix2 r ⟨k.val, h⟩) else b (ix2 r ⟨k.val - 64, _⟩))
    = (if h : k.val < 64 then A (ix2 R ⟨k.val, h⟩) else B (ix2 R ⟨k.val - 64, _⟩))
  split_ifs with h
  · exact ha _
  · exact hb _

end Cert.LibMlpRows

end
-- ==== Proof.Spec.lean ====
/-
  The mathematics of one lifecycle update, over the extended reals.

  An edge's event features pass through a linear layer and are rectified; the rectified rows are summed per target
  object and divided by the number of edges into it; the mean and the object's own features then drive one gated
  recurrent cell. Here are the two row-wise maps that the tiled programs compute block by block: the rectified linear
  layer on every row of a matrix, and the gated cell on every row of a pair of matrices. Each is stated once, as a
  function of whole matrices, and each comes with the fact that a row block of the result depends only on the same row
  block of the inputs.

  The cell. With gi = p·Wi + bi and gh = x·Wh + bh of width 768, split in three parts of width 256 (lo, mid, hi),
    r = σ(gi_lo + gh_lo),  z = σ(gi_mid + gh_mid),  n = tanh(gi_hi + r · gh_hi),  out = (1 − z) · n + z · x,
  where σ is the logistic function and 1 is the value of the float word of 1.0.
-/
import Idealize.ShloMosaic.PureOps.Ideal.Laws
import Idealize.ShloMosaic.Lib.ValueIdx
import Idealize.ShloMosaic.Lib.Pipeline.Value
import proofs.«133819_j90022514524503_1_alg».proof.Proof.LibMlpRows

noncomputable section

open Idealize.ShloMosaic Idealize.ShloMosaic.ValueIdx

namespace Cert.Lifecycle

open Cert.LibMlpRows

/-- The value of the float word of 1.0, kept as a word. -/
abbrev oneW : EReal := Ideal.ofBits .f32 0x3F800000#32
/-- The value of the float word of 0.0, kept as a word. -/
abbrev zeroW : EReal := Ideal.ofBits .f32 0x00000000#32

/-- Column q of the first, second and third part of a row of width 768. -/
def lo (q : Fin 256) : Fin 768 := ⟨q.val, by have := q.isLt; omega⟩
def mid (q : Fin 256) : Fin 768 := ⟨256 + q.val, by have := q.isLt; omega⟩
def hi (q : Fin 256) : Fin 768 := ⟨512 + q.val, by have := q.isLt; omega⟩

/-- The gated cell at one entry: from the two pre-activation rows gi and gh and the old value x at column q. -/
def cell (gi gh : Fin 768 → EReal) (x : EReal) (q : Fin 256) : EReal :=
  (oneW - Ideal.logistic (gi (mid q) + gh (mid q)))
      * Ideal.tanh (gi (hi q) + Ideal.logistic (gi (lo q) + gh (lo q)) * gh (hi q))
    + Ideal.logistic (gi (mid q) + gh (mid q)) * x

/-- The rectified linear layer on every row of a matrix G of width 256. -/
def projRows {M : ℕ} (G : (⟨2, ![M, 256]⟩ : Shape).Idx → EReal) (w : Fin 256 → Fin 256 → EReal) (b : Fin 256 → EReal) :
    (⟨2, ![M, 256]⟩ : Shape).Idx → EReal :=
  fun i => max (layer (fun k => G (ix2 (n0 := M) (i 0) k)) w b (i 1)) zeroW

theorem projRows_ix2 {M : ℕ} (G : (⟨2, ![M, 256]⟩ : Shape).Idx → EReal) (w : Fin 256 → Fin 256 → EReal) (b : Fin 256 → EReal)
    (e : Fin M) (j : Fin 256) : projRows G w b (ix2 e j) = max (layer (fun k => G (ix2 e k)) w b j) zeroW := rfl

/-- A row block of the rectified layer is the rectified layer of the row block. -/
theorem projRows_block {M M' : ℕ} (G : (⟨2, ![M, 256]⟩ : Shape).Idx → EReal) (g : (⟨2, ![M', 256]⟩ : Shape).Idx → EReal)
    (w : Fin 256 → Fin 256 → EReal) (b : Fin 256 → EReal)
    (y : (⟨2, ![M', 256]⟩ : Shape).Idx) (i : (⟨2, ![M, 256]⟩ : Shape).Idx)
    (hrow : ∀ k : Fin 256, g (ix2 (n0 := M') (y 0) k) = G (ix2 (n0 := M) (i 0) k)) (hcol : (y 1).val = (i 1).val) :
    projRows g w b y = projRows G w b i := by
  unfold projRows
  have hx : (fun k => g (ix2 (n0 := M') (y 0) k)) = fun k => G (ix2 (n0 := M) (i 0) k) := funext hrow
  rw [hx]
  exact congrArg (fun j => max (layer _ w b j) zeroW) (Fin.ext hcol)

/-- The gated cell on every row: P holds the means, X the old features. -/
def gruRows {M : ℕ} (P X : (⟨2, ![M, 256]⟩ : Shape).Idx → EReal)
    (wi : Fin 256 → Fin 768 → EReal) (bi : Fin 768 → EReal) (wh : Fin 256 → Fin 768 → EReal) (bh : Fin 768 → EReal) :
    (⟨2, ![M, 256]⟩ : Shape).Idx → EReal :=
  fun i => cell (layer (fun k => P (ix2 (n0 := M) (i 0) k)) wi bi) (layer (fun k => X (ix2 (n0 := M) (i 0) k)) wh bh)
    (X (ix2 (n0 := M) (i 0) (i 1))) (i 1)

theorem gruRows_ix2 {M : ℕ} (P X : (⟨2, ![M, 256]⟩ : Shape).Idx → EReal)
    (wi : Fin 256 → Fin 768 → EReal) (bi : Fin 768 → EReal) (wh : Fin 256 → Fin 768 → EReal) (bh : Fin 768 → EReal)
    (r : Fin M) (q : Fin 256) :
    gruRows P X wi bi wh bh (ix2 r q)
      = cell (layer (fun k => P (ix2 r k)) wi bi) (layer (fun k => X (ix2 r k)) wh bh) (X (ix2 r q)) q := rfl

/-- A row block of the gated cell's result is the gated cell of the row blocks. -/
theorem gruRows_block {M M' : ℕ} (P X : (⟨2, ![M, 256]⟩ : Shape).Idx → EReal) (p x : (⟨2, ![M', 256]⟩ : Shape).Idx → EReal)
    (wi : Fin 256 → Fin 768 → EReal) (bi : Fin 768 → EReal) (wh : Fin 256 → Fin 768 → EReal) (bh : Fin 768 → EReal)
    (y : (⟨2, ![M', 256]⟩ : Shape).Idx) (i : (⟨2, ![M, 256]⟩ : Shape).Idx)
    (hp : ∀ k : Fin 256, p (ix2 (n0 := M') (y 0) k) = P (ix2 (n0 := M) (i 0) k))
    (hx : ∀ k : Fin 256, x (ix2 (n0 := M') (y 0) k) = X (ix2 (n0 := M) (i 0) k)) (hcol : (y 1).val = (i 1).val) :
    gruRows p x wi bi wh bh y = gruRows P X wi bi wh bh i := by
  unfold gruRows
  have e1 : (fun k => p (ix2 (n0 := M') (y 0) k)) = fun k => P (ix2 (n0 := M) (i 0) k) := funext hp
  have e2 : (fun k => x (ix2 (n0 := M') (y 0) k)) = fun k => X (ix2 (n0 := M) (i 0) k) := funext hx
  have e3 : (y 1 : Fin 256) = i 1 := Fin.ext hcol
  rw [e1, e2, hx (y 1), e3]

end Cert.Lifecycle

end
-- ==== Proof.ProjValue.lean ====
/-
  The first tiled region: what it leaves in its result array.

  The region walks the 500000 gathered rows in 100 blocks of 5000; at block t it multiplies the block by the whole
  256 × 256 weight matrix, adds the bias row, and rectifies. A block of the result depends on the same rows of the
  gathered matrix only, so the blocks are restrictions of one function of the whole arrays, the rectified linear layer
  on every row, and since the hundred blocks tile the array it ends holding that function.
-/
import proofs.«133819_j90022514524503_1_alg».proof.Proof.Gen.KernelIdeal.Frame
import proofs.«133819_j90022514524503_1_alg».proof.Proof.Spec
import Idealize.ShloMosaic.Lib.Pipeline.Value
import Idealize.ShloMosaic.Lib.ValueIdx

set_option maxRecDepth 16384

noncomputable section

namespace Cert.KernelIdeal.ProjValue

open Cert.KernelIdeal Cert.KernelIdeal.Gen Cert.Lifecycle Cert.LibMlpRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value, entry by entry: the rectified linear layer on the rows of the loaded block. -/
theorem pay_eq (x0 : Vec Ideal S5000x256 .bf16) (x1 : Vec Ideal S256x256 .bf16) (x2 : Vec Ideal S1x256 .f32) :
    k0_pay1 (F := Ideal) x0 x1 x2
      = projRows (M := 5000) x0 (fun k n => x1 (ix2 k n)) (fun n => x2 (ix2 (0 : Fin 1) n)) := by
  funext j
  obtain ⟨p, q, rfl⟩ : ∃ (p : Fin 5000) (q : Fin 256), j = ix2 p q := ⟨j 0, j 1, eq_ix2 j⟩
  rw [projRows_ix2]
  unfold k0_pay1
  simp only [shapeCast_self]
  refine congrArg (fun v => max v zeroW) ?_
  exact unit_layer_apply x0 x1 x2 _ p q

/-- The printed index maps, decided once over the hundred points: the gathered rows and the result move together, one
    block of 5000 rows per point, and the weight matrix and the bias row stay whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight window's block is the whole weight matrix at every point. -/
theorem blk_w (c : Dev nD) (t : Fin cfg0.N) : iblk0 V c 1 t = V c main_v9 := by
  obtain ⟨-, -, e2, e3, -, -, -, -⟩ := idx_facts t
  funext y
  show V c main_v9 (((cfg0.win 1).blk t).view.emb y) = V c main_v9 y
  refine congrArg (V c main_v9) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The bias window's block is the whole bias row at every point. -/
theorem blk_b (c : Dev nD) (t : Fin cfg0.N) : iblk0 V c 2 t = V c main_v10 := by
  obtain ⟨-, -, -, -, e4, e5, -, -⟩ := idx_facts t
  funext y
  show V c main_v10 (((cfg0.win 2).blk t).view.emb y) = V c main_v10 y
  refine congrArg (V c main_v10) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Row y₀ of the gathered block at point t is the row of the gathered matrix that the result's block puts y at. -/
theorem blk_rows (c : Dev nD) (t : Fin cfg0.N) (y : S5000x256.Idx) (k : Fin 256) :
    iblk0 V c 0 t (ix2 (n0 := 5000) (y 0) k)
      = V c main_v7 (ix2 (n0 := 500000) ((((cfg0.win 3).blk t).view.emb y) 0) k) := by
  obtain ⟨e0, e1, -, -, -, -, e6, e7⟩ := idx_facts t
  show V c main_v7 (((cfg0.win 0).blk t).view.emb (ix2 (n0 := 5000) (y 0) k)) = _
  refine congrArg (V c main_v7) (funext fun a => Fin.ext ?_)
  match a with
  | ⟨0, _⟩ => show win0_0.index t (0 : Fin 2) * 5000 + 1 * (y 0).val = win0_3.index t (0 : Fin 2) * 5000 + 1 * (y 0).val; omega
  | ⟨1, _⟩ => show win0_0.index t (1 : Fin 2) * 256 + 1 * k.val = k.val; omega

/-- What point t writes back is block t of the rectified layer on the rows of the whole gathered matrix. -/
theorem flushed_eq (c : Dev nD) (t : Fin cfg0.N) :
    (dat0 V c).flushed 3 t = ((cfg0.win 3).blk t).view.read (Elt Ideal)
      (projRows (M := 500000) (V c main_v7) (fun k n => V c main_v9 (ix2 k n)) (fun n => V c main_v10 (ix2 (0 : Fin 1) n))) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x256) hz, View.ld_unit_zero (S := S1x256) hz]
  rw [pay_eq, blk_w, blk_b]
  obtain ⟨-, -, -, -, -, -, e6, e7⟩ := idx_facts t
  funext y
  show projRows (M := 5000) (iblk0 V c 0 t) (fun k n => V c main_v9 (ix2 k n)) (fun n => V c main_v10 (ix2 (0 : Fin 1) n)) y
    = projRows (M := 500000) (V c main_v7) (fun k n => V c main_v9 (ix2 k n)) (fun n => V c main_v10 (ix2 (0 : Fin 1) n))
        (((cfg0.win 3).blk t).view.emb y)
  refine projRows_block _ _ _ _ y _ (fun k => blk_rows V c t y k) ?_
  show (y 1).val = win0_3.index t (1 : Fin 2) * 256 + 1 * (y 1).val
  omega

/-- An index of the result array is in point t's block iff each coordinate is in the block's range on its axis. -/
theorem mem_blk (t : Fin cfg0.N) (i : S500000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v11).slice (win0_3.rect t)).set ↔ _
  rw [View.set_slice_whole, Rect.mem_set_unit]
  exact Iff.rfl

/-- The hundred blocks tile the result array: row r lies in block r / 5000. -/
theorem cover (i : S500000x256.Idx) :
    ∃ t : Fin cfg0.N, (cfg0.win 3).flush t = true ∧ i ∈ ((cfg0.win 3).blk t).view.set := by
  have hi0 : (i 0).val < 500000 := (i 0).isLt
  have hi1 : (i 1).val < 256 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- After the region its result array holds the rectified linear layer of every row of the gathered matrix, whatever
    the contents the region was entered with. -/
theorem final (c : Dev nD) :
    (dat0 V c).arrAt 3 cfg0.N
      = projRows (M := 500000) (V c main_v7) (fun k n => V c main_v9 (ix2 k n)) (fun n => V c main_v10 (ix2 (0 : Fin 1) n)) :=
  (dat0 V c).arrAt_eq_of_cover 3 _ (fun t _ => flushed_eq V c t) cover

end Cert.KernelIdeal.ProjValue

end
-- ==== Proof.GruValue.lean ====
/-
  The second tiled region: what it leaves in its result array.

  The region walks the 50000 objects in 25 blocks of 2000 rows; at block t it takes the same rows of the mean matrix
  and of the old features, forms the two pre-activation matrices gi = p·Wi + bi and gh = x·Wh + bh of width 768 with the
  whole weight matrices and bias rows, cuts each in three parts of width 256, and applies the gated cell entry by
  entry. A row block of the result depends on the same rows of the two inputs only, so the blocks are restrictions of
  one function of the whole arrays, the gated cell on every row, and since the blocks tile the array it ends holding
  that function.
-/
import proofs.«133819_j90022514524503_1_alg».proof.Proof.Gen.KernelIdeal.Frame
import proofs.«133819_j90022514524503_1_alg».proof.Proof.Spec
import Idealize.ShloMosaic.Lib.Pipeline.Value
import Idealize.ShloMosaic.Lib.ValueIdx

set_option maxRecDepth 16384

noncomputable section

namespace Cert.KernelIdeal.GruValue

open Cert.KernelIdeal Cert.KernelIdeal.Gen Cert.Lifecycle Cert.LibMlpRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The three parts of a pre-activation matrix of width 768, read at row p and column q. -/
theorem part_lo (G : FVec Ideal S2000x768 .f32) (p : Fin 2000) (q : Fin 256) :
    extractStridedSlice S2000x256 ![0, 0] G slices_S2000x768_o0_0_S2000x256 (ix2 p q) = G (ix2 p (lo q)) :=
  extractStridedSlice_apply ![0, 0] G slices_S2000x768_o0_0_S2000x256 (ix2 p q) (ix2 p (lo q)) (fun a => match a with
    | ⟨0, _⟩ => by show p.val = 0 + p.val; omega
    | ⟨1, _⟩ => by show q.val = 0 + q.val; omega)
theorem part_mid (G : FVec Ideal S2000x768 .f32) (p : Fin 2000) (q : Fin 256) :
    extractStridedSlice S2000x256 ![0, 256] G slices_S2000x768_o0_256_S2000x256 (ix2 p q) = G (ix2 p (mid q)) :=
  extractStridedSlice_apply ![0, 256] G slices_S2000x768_o0_256_S2000x256 (ix2 p q) (ix2 p (mid q)) (fun a => match a with
    | ⟨0, _⟩ => by show p.val = 0 + p.val; omega
    | ⟨1, _⟩ => by show 256 + q.val = 256 + q.val; rfl)
theorem part_hi (G : FVec Ideal S2000x768 .f32) (p : Fin 2000) (q : Fin 256) :
    extractStridedSlice S2000x256 ![0, 512] G slices_S2000x768_o0_512_S2000x256 (ix2 p q) = G (ix2 p (hi q)) :=
  extractStridedSlice_apply ![0, 512] G slices_S2000x768_o0_512_S2000x256 (ix2 p q) (ix2 p (hi q)) (fun a => match a with
    | ⟨0, _⟩ => by show p.val = 0 + p.val; omega
    | ⟨1, _⟩ => by show 512 + q.val = 512 + q.val; rfl)

/-- The body's gating arithmetic on two pre-activation matrices and the old features, at row p and column q, is the
    gated cell of their rows p. -/
theorem gates_apply (Gi Gh : FVec Ideal S2000x768 .f32) (X : FVec Ideal S2000x256 .f32) (p : Fin 2000) (q : Fin 256) :
    addf (mulf (subf (broadcast S2000x256 (Scalar.ofBits (F := Ideal) .f32 0x3F800000#32))
            (logistic (addf (extractStridedSlice S2000x256 ![0, 256] Gi slices_S2000x768_o0_256_S2000x256)
              (extractStridedSlice S2000x256 ![0, 256] Gh slices_S2000x768_o0_256_S2000x256))))
          (tanh (addf (extractStridedSlice S2000x256 ![0, 512] Gi slices_S2000x768_o0_512_S2000x256)
            (mulf (logistic (addf (extractStridedSlice S2000x256 ![0, 0] Gi slices_S2000x768_o0_0_S2000x256)
                (extractStridedSlice S2000x256 ![0, 0] Gh slices_S2000x768_o0_0_S2000x256)))
              (extractStridedSlice S2000x256 ![0, 512] Gh slices_S2000x768_o0_512_S2000x256)))))
        (mulf (logistic (addf (extractStridedSlice S2000x256 ![0, 256] Gi slices_S2000x768_o0_256_S2000x256)
            (extractStridedSlice S2000x256 ![0, 256] Gh slices_S2000x768_o0_256_S2000x256))) X) (ix2 p q)
      = cell (fun n => Gi (ix2 p n)) (fun n => Gh (ix2 p n)) (X (ix2 p q)) q := by
  show (oneW - Ideal.logistic (extractStridedSlice S2000x256 ![0, 256] Gi slices_S2000x768_o0_256_S2000x256 (ix2 p q)
            + extractStridedSlice S2000x256 ![0, 256] Gh slices_S2000x768_o0_256_S2000x256 (ix2 p q)))
        * Ideal.tanh (extractStridedSlice S2000x256 ![0, 512] Gi slices_S2000x768_o0_512_S2000x256 (ix2 p q)
            + Ideal.logistic (extractStridedSlice S2000x256 ![0, 0] Gi slices_S2000x768_o0_0_S2000x256 (ix2 p q)
                + extractStridedSlice S2000x256 ![0, 0] Gh slices_S2000x768_o0_0_S2000x256 (ix2 p q))
              * extractStridedSlice S2000x256 ![0, 512] Gh slices_S2000x768_o0_512_S2000x256 (ix2 p q))
      + Ideal.logistic (extractStridedSlice S2000x256 ![0, 256] Gi slices_S2000x768_o0_256_S2000x256 (ix2 p q)
            + extractStridedSlice S2000x256 ![0, 256] Gh slices_S2000x768_o0_256_S2000x256 (ix2 p q)) * X (ix2 p q) = _
  rw [part_lo Gi, part_lo Gh, part_mid Gi, part_mid Gh, part_hi Gi, part_hi Gh]
  rfl

/-- One pre-activation matrix, read at row p: the product into a zero accumulator plus the broadcast bias row is the
    affine layer of row p of the left operand (rounding to the narrower format changes nothing over the reals). -/
theorem preact_apply (v : FVec Ideal S2000x256 .f32) (w : FVec Ideal S256x768 .bf16) (b : FVec Ideal S1x768 .f32) (p : Fin 2000) :
    (fun n : Fin 768 => addf (matmul dot_S2000x256_S256x768_S2000x768_1_0_0_1_n_n none (truncf .bf16 v bitsLt_bf16_f32) w
        (constant S2000x768 .f32 0x00000000#32)) (broadcastTo S2000x768 b broadcasts_S1x768_S2000x768) (ix2 p n))
      = layer (fun k => v (ix2 p k)) (fun k n => w (ix2 k n)) (fun n => b (ix2 (0 : Fin 1) n)) :=
  funext fun n => unit_layer_apply (truncf .bf16 v bitsLt_bf16_f32) w b _ p n

/-- The body's stored value, entry by entry: the gated cell on the rows of the loaded blocks. -/
theorem pay_eq (v0 v2 : Vec Ideal S2000x256 .f32) (v5 : Vec Ideal S256x768 .bf16) (v8 : Vec Ideal S1x768 .f32)
    (v12 : Vec Ideal S256x768 .bf16) (v15 : Vec Ideal S1x768 .f32) :
    k1_pay1 (F := Ideal) v0 v2 v5 v8 v12 v15
      = gruRows (M := 2000) v0 v2 (fun k n => v5 (ix2 k n)) (fun n => v8 (ix2 (0 : Fin 1) n))
          (fun k n => v12 (ix2 k n)) (fun n => v15 (ix2 (0 : Fin 1) n)) := by
  funext j
  obtain ⟨p, q, rfl⟩ : ∃ (p : Fin 2000) (q : Fin 256), j = ix2 p q := ⟨j 0, j 1, eq_ix2 j⟩
  rw [gruRows_ix2]
  unfold k1_pay1
  simp only [shapeCast_self]
  refine (gates_apply _ _ v2 p q).trans ?_
  exact congrArg₂ (fun a b => cell a b (v2 (ix2 p q)) q) (preact_apply v0 v5 v8 p) (preact_apply v2 v12 v15 p)

/-- The printed index maps, decided once over the 25 points: the means, the old features and the result move together,
    one block of 2000 rows per point, and the weight matrices and the bias rows stay whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The four whole windows: each block is its whole array at every point. -/
theorem blk_wi (c : Dev nD) (t : Fin cfg1.N) : iblk1 V c 2 t = V c main_v25 := by
  obtain ⟨-, -, -, -, e4, e5, -⟩ := idx_facts t
  funext y
  show V c main_v25 (((cfg1.win 2).blk t).view.emb y) = V c main_v25 y
  refine congrArg (V c main_v25) (funext fun a => Fin.ext ?_)
  match a with
  | ⟨0, _⟩ => show win1_2.index t (0 : Fin 2) * 256 + 1 * (y 0).val = (y 0).val; omega
  | ⟨1, _⟩ => show win1_2.index t (1 : Fin 2) * 768 + 1 * (y 1).val = (y 1).val; omega
theorem blk_bi (c : Dev nD) (t : Fin cfg1.N) : iblk1 V c 3 t = V c main_v28 := by
  obtain ⟨-, -, -, -, -, -, e6, e7, -⟩ := idx_facts t
  funext y
  show V c main_v28 (((cfg1.win 3).blk t).view.emb y) = V c main_v28 y
  refine congrArg (V c main_v28) (funext fun a => Fin.ext ?_)
  match a with
  | ⟨0, _⟩ => show win1_3.index t (0 : Fin 2) * 1 + 1 * (y 0).val = (y 0).val; omega
  | ⟨1, _⟩ => show win1_3.index t (1 : Fin 2) * 768 + 1 * (y 1).val = (y 1).val; omega
theorem blk_wh (c : Dev nD) (t : Fin cfg1.N) : iblk1 V c 4 t = V c main_v27 := by
  obtain ⟨-, -, -, -, -, -, -, -, e8, e9, -⟩ := idx_facts t
  funext y
  show V c main_v27 (((cfg1.win 4).blk t).view.emb y) = V c main_v27 y
  refine congrArg (V c main_v27) (funext fun a => Fin.ext ?_)
  match a with
  | ⟨0, _⟩ => show win1_4.index t (0 : Fin 2) * 256 + 1 * (y 0).val = (y 0).val; omega
  | ⟨1, _⟩ => show win1_4.index t (1 : Fin 2) * 768 + 1 * (y 1).val = (y 1).val; omega
theorem blk_bh (c : Dev nD) (t : Fin cfg1.N) : iblk1 V c 5 t = V c main_v29 := by
  obtain ⟨-, -, -, -, -, -, -, -, -, -, e10, e11, -⟩ := idx_facts t
  funext y
  show V c main_v29 (((cfg1.win 5).blk t).view.emb y) = V c main_v29 y
  refine congrArg (V c main_v29) (funext fun a => Fin.ext ?_)
  match a with
  | ⟨0, _⟩ => show win1_5.index t (0 : Fin 2) * 1 + 1 * (y 0).val = (y 0).val; omega
  | ⟨1, _⟩ => show win1_5.index t (1 : Fin 2) * 768 + 1 * (y 1).val = (y 1).val; omega

/-- Row y₀ of the block of means at point t is the row of the mean matrix that the result's block puts y at; -/
theorem blk_rows_p (c : Dev nD) (t : Fin cfg1.N) (y : S2000x256.Idx) (k : Fin 256) :
    iblk1 V c 0 t (ix2 (n0 := 2000) (y 0) k)
      = V c main_v23 (ix2 (n0 := 50000) ((((cfg1.win 6).blk t).view.emb y) 0) k) := by
  obtain ⟨e0, e1, -, -, -, -, -, -, -, -, -, -, e12, e13⟩ := idx_facts t
  show V c main_v23 (((cfg1.win 0).blk t).view.emb (ix2 (n0 := 2000) (y 0) k)) = _
  refine congrArg (V c main_v23) (funext fun a => Fin.ext ?_)
  match a with
  | ⟨0, _⟩ => show win1_0.index t (0 : Fin 2) * 2000 + 1 * (y 0).val = win1_6.index t (0 : Fin 2) * 2000 + 1 * (y 0).val; omega
  | ⟨1, _⟩ => show win1_0.index t (1 : Fin 2) * 256 + 1 * k.val = k.val; omega
/-- and the same for the block of old features. -/
theorem blk_rows_x (c : Dev nD) (t : Fin cfg1.N) (y : S2000x256.Idx) (k : Fin 256) :
    iblk1 V c 1 t (ix2 (n0 := 2000) (y 0) k)
      = V c main_arg0 (ix2 (n0 := 50000) ((((cfg1.win 6).blk t).view.emb y) 0) k) := by
  obtain ⟨-, -, e2, e3, -, -, -, -, -, -, -, -, e12, e13⟩ := idx_facts t
  show V c main_arg0 (((cfg1.win 1).blk t).view.emb (ix2 (n0 := 2000) (y 0) k)) = _
  refine congrArg (V c main_arg0) (funext fun a => Fin.ext ?_)
  match a with
  | ⟨0, _⟩ => show win1_1.index t (0 : Fin 2) * 2000 + 1 * (y 0).val = win1_6.index t (0 : Fin 2) * 2000 + 1 * (y 0).val; omega
  | ⟨1, _⟩ => show win1_1.index t (1 : Fin 2) * 256 + 1 * k.val = k.val; omega

/-- What point t writes back is block t of the gated cell on the rows of the whole mean matrix and old features. -/
theorem flushed_eq (c : Dev nD) (t : Fin cfg1.N) :
    (dat1 V c).flushed 6 t = ((cfg1.win 6).blk t).view.read (Elt Ideal)
      (gruRows (M := 50000) (V c main_v23) (V c main_arg0) (fun k n => V c main_v25 (ix2 k n)) (fun n => V c main_v28 (ix2 (0 : Fin 1) n))
        (fun k n => V c main_v27 (ix2 k n)) (fun n => V c main_v29 (ix2 (0 : Fin 1) n))) := by
  show (cfg1.win 6).cut (grid1.coords t) ((dat1 V c).after 6 t) = _
  rw [after1_6]
  unfold out1_6
  rw [View.canon_unit_zero hz]
  simp only [View.ld_unit_zero (S := S2000x256) hz, View.ld_unit_zero (S := S256x768) hz, View.ld_unit_zero (S := S1x768) hz]
  rw [pay_eq, blk_wi, blk_bi, blk_wh, blk_bh]
  obtain ⟨-, -, -, -, -, -, -, -, -, -, -, -, e12, e13⟩ := idx_facts t
  funext y
  show gruRows (M := 2000) (iblk1 V c 0 t) (iblk1 V c 1 t) (fun k n => V c main_v25 (ix2 k n)) (fun n => V c main_v28 (ix2 (0 : Fin 1) n))
        (fun k n => V c main_v27 (ix2 k n)) (fun n => V c main_v29 (ix2 (0 : Fin 1) n)) y
    = gruRows (M := 50000) (V c main_v23) (V c main_arg0) (fun k n => V c main_v25 (ix2 k n)) (fun n => V c main_v28 (ix2 (0 : Fin 1) n))
        (fun k n => V c main_v27 (ix2 k n)) (fun n => V c main_v29 (ix2 (0 : Fin 1) n)) (((cfg1.win 6).blk t).view.emb y)
  refine gruRows_block _ _ _ _ _ _ _ _ y _ (fun k => blk_rows_p V c t y k) (fun k => blk_rows_x V c t y k) ?_
  show (y 1).val = win1_6.index t (1 : Fin 2) * 256 + 1 * (y 1).val
  omega

/-- An index of the result array is in point t's block iff each coordinate is in the block's range on its axis. -/
theorem mem_blk (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v30).slice (win1_6.rect t)).set ↔ _
  rw [View.set_slice_whole, Rect.mem_set_unit]
  exact Iff.rfl

/-- The 25 blocks tile the result array: row r lies in block r / 2000. -/
theorem cover (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by show _ < grid1.N; rw [N_1]; omega⟩, rfl⟩
  obtain ⟨-, -, -, -, -, -, -, -, -, -, -, -, e12, e13⟩ := idx_facts t
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 256 ≤ (i 1).val ∧ (i 1).val < win1_6.index t (1 : Fin 2) * 256 + 256
    omega

/-- After the region its result array holds the gated cell of every row, whatever the contents the region was entered
    with. -/
theorem final (c : Dev nD) :
    (dat1 V c).arrAt 6 cfg1.N
      = gruRows (M := 50000) (V c main_v23) (V c main_arg0) (fun k n => V c main_v25 (ix2 k n)) (fun n => V c main_v28 (ix2 (0 : Fin 1) n))
          (fun k n => V c main_v27 (ix2 k n)) (fun n => V c main_v29 (ix2 (0 : Fin 1) n)) :=
  (dat1 V c).arrAt_eq_of_cover 6 _ (fun t _ => flushed_eq V c t) cover

end Cert.KernelIdeal.GruValue

end
-- ==== Proof.LibSpelledLogistic.lean ====
/-
  The logistic function spelled out on the extended reals. A program that writes σ(z) as 1 / (1 + e^(−z)) with the
  float literal 1.0 for both ones computes the logistic function of z at every extended real, the infinities included:
  the literal denotes the number one, and the logistic function is by definition that quotient.
-/
import Idealize.ShloMosaic.PureOps.Ideal

noncomputable section

namespace Cert.LibSpelledLogistic

open Idealize.ShloMosaic

/-- The float word of 1.0 denotes the real number one. -/
theorem word_one : Ideal.ofBits .f32 0x3F800000#32 = 1 := by
  simp [Ideal.ofBits, Ideal.ieee, -EReal.coe_mul]; norm_num

/-- The quotient 1 / (1 + e^(−z)) spelled with the word of 1.0 twice is the logistic function of z. -/
theorem spelled_logistic (z : EReal) :
    Ideal.div (Ideal.ofBits .f32 0x3F800000#32) (Ideal.ofBits .f32 0x3F800000#32 + Ideal.exp (-z)) = Ideal.logistic z := by
  rw [word_one]; rfl

end Cert.LibSpelledLogistic

end
-- ==== Proof.RefValue.lean ====
/-
  The reference, stage by stage, in the same two row-wise maps.

  The reference multiplies all 500000 gathered rows by the transposed projection weights at once, adds the bias and
  rectifies: the rectified linear layer on every row. After the per-object mean it forms the two pre-activation
  matrices of all 50000 objects at once, cuts each in three, and spells the logistic function as 1 / (1 + e^(−z)): the
  gated cell on every row. A sum over the contracted coordinate is the same sum whichever unit computes it, and the
  spelled quotient is the logistic function at every extended real, so no finiteness is needed.
-/
import proofs.«133819_j90022514524503_1_alg».proof.Proof.Gen.ReferenceIdeal.Read
import proofs.«133819_j90022514524503_1_alg».proof.Proof.Spec
import proofs.«133819_j90022514524503_1_alg».proof.Proof.LibSpelledLogistic
import Idealize.ShloMosaic.Lib.Pipeline.Value
import Idealize.ShloMosaic.Lib.ValueIdx

noncomputable section

namespace Cert.ReferenceIdeal.RefValue

open Cert.ReferenceIdeal Cert.ReferenceIdeal.Read Cert.Lifecycle Cert.LibMlpRows
open Idealize.ShloMosaic Idealize.ShloMosaic.ValueIdx

variable (x0 : (⟨S50000x256, .f32⟩ : BufTy).Contents (Elt Ideal)) (x1 : (⟨S100000x256, .f32⟩ : BufTy).Contents (Elt Ideal))
  (x2 x3 : (⟨S500000, .i32⟩ : BufTy).Contents (Elt Ideal)) (x5 : (⟨S256x256, .f32⟩ : BufTy).Contents (Elt Ideal))
  (x6 : (⟨S256, .f32⟩ : BufTy).Contents (Elt Ideal)) (x7 : (⟨S768x256, .f32⟩ : BufTy).Contents (Elt Ideal))
  (x8 : (⟨S768, .f32⟩ : BufTy).Contents (Elt Ideal)) (x9 : (⟨S768x256, .f32⟩ : BufTy).Contents (Elt Ideal))
  (x10 : (⟨S768, .f32⟩ : BufTy).Contents (Elt Ideal))

/-- The reference's rectified projection is the rectified linear layer on every gathered row. -/
theorem proj_eq :
    val_main_v12 (F := Ideal) x1 x3 x5 x6
      = projRows (M := 500000) (val_main_v6 (F := Ideal) x1 x3) (fun k n => val_main_v7 (F := Ideal) x5 (ix2 k n))
          (fun n => x6 (ix1 n)) := by
  funext i
  obtain ⟨e, j, rfl⟩ : ∃ (e : Fin 500000) (j : Fin 256), i = ix2 e j := ⟨i 0, i 1, eq_ix2 i⟩
  rw [projRows_ix2]
  unfold val_main_v12 val_main_v11 val_main_v8 val_main_v10 val_main_v9 val_main_call0_v0 val_main_call0_cst
  refine congrArg₂ max ?_ ?_
  · exact host_layer_apply (val_main_v6 (F := Ideal) x1 x3) (val_main_v7 (F := Ideal) x5) x6 _ _ e j
  · exact splat_const_apply _ _ _

/-- The first pre-activation matrix, read at row r: the affine layer of row r of the mean matrix. -/
theorem gi_eq (r : Fin 50000) :
    (fun n : Fin 768 => val_main_v29 (F := Ideal) x1 x2 x3 x5 x6 x7 x8 (ix2 r n))
      = layer (fun k => val_main_v24 (F := Ideal) x1 x2 x3 x5 x6 (ix2 r k)) (fun k n => val_main_v25 (F := Ideal) x7 (ix2 k n))
          (fun n => x8 (ix1 n)) := by
  funext n
  unfold val_main_v29 val_main_v26 val_main_v28 val_main_v27
  exact host_layer_apply (val_main_v24 (F := Ideal) x1 x2 x3 x5 x6) (val_main_v25 (F := Ideal) x7) x8 _ _ r n

/-- The second pre-activation matrix, read at row r: the affine layer of row r of the old features. -/
theorem gh_eq (r : Fin 50000) :
    (fun n : Fin 768 => val_main_v34 (F := Ideal) x0 x9 x10 (ix2 r n))
      = layer (fun k => x0 (ix2 r k)) (fun k n => val_main_v30 (F := Ideal) x9 (ix2 k n)) (fun n => x10 (ix1 n)) := by
  funext n
  unfold val_main_v34 val_main_v31 val_main_v33 val_main_v32
  exact host_layer_apply x0 (val_main_v30 (F := Ideal) x9) x10 _ _ r n

/-- Where the three cuts of a matrix of width 768 read it. -/
theorem cut_lo (r : Fin 50000) (q : Fin 256) : idx_main_v35 (ix2 r q) = ix2 r (lo q) :=
  funext fun a => match a with | ⟨0, _⟩ => rfl | ⟨1, _⟩ => rfl
theorem cut_mid (r : Fin 50000) (q : Fin 256) : idx_main_v36 (ix2 r q) = ix2 r (mid q) :=
  funext fun a => match a with | ⟨0, _⟩ => rfl | ⟨1, _⟩ => rfl
theorem cut_hi (r : Fin 50000) (q : Fin 256) : idx_main_v37 (ix2 r q) = ix2 r (hi q) :=
  funext fun a => match a with | ⟨0, _⟩ => rfl | ⟨1, _⟩ => rfl
theorem cut_lo' (r : Fin 50000) (q : Fin 256) : idx_main_v38 (ix2 r q) = ix2 r (lo q) :=
  funext fun a => match a with | ⟨0, _⟩ => rfl | ⟨1, _⟩ => rfl
theorem cut_mid' (r : Fin 50000) (q : Fin 256) : idx_main_v39 (ix2 r q) = ix2 r (mid q) :=
  funext fun a => match a with | ⟨0, _⟩ => rfl | ⟨1, _⟩ => rfl
theorem cut_hi' (r : Fin 50000) (q : Fin 256) : idx_main_v40 (ix2 r q) = ix2 r (hi q) :=
  funext fun a => match a with | ⟨0, _⟩ => rfl | ⟨1, _⟩ => rfl

/-- The five splats of the float word of 1.0 that the spelled logistic functions and the blend use. -/
theorem one44 (i : S50000x256.Idx) : val_main_v44 (F := Ideal) i = oneW := (val_main_v44_apply i).trans rfl
theorem one46 (i : S50000x256.Idx) : val_main_v46 (F := Ideal) i = oneW := (val_main_v46_apply i).trans rfl
theorem one51 (i : S50000x256.Idx) : val_main_v51 (F := Ideal) i = oneW := (val_main_v51_apply i).trans rfl
theorem one53 (i : S50000x256.Idx) : val_main_v53 (F := Ideal) i = oneW := (val_main_v53_apply i).trans rfl
theorem one58 (i : S50000x256.Idx) : val_main_v58 (F := Ideal) i = oneW := (val_main_v58_apply i).trans rfl

/-- The reference's cell output is the gated cell on every row of the mean matrix and the old features. -/
theorem gru_eq :
    val_main_v62 (F := Ideal) x0 x1 x2 x3 x5 x6 x7 x8 x9 x10
      = gruRows (M := 50000) (val_main_v24 (F := Ideal) x1 x2 x3 x5 x6) x0
          (fun k n => val_main_v25 (F := Ideal) x7 (ix2 k n)) (fun n => x8 (ix1 n))
          (fun k n => val_main_v30 (F := Ideal) x9 (ix2 k n)) (fun n => x10 (ix1 n)) := by
  funext i
  obtain ⟨r, q, rfl⟩ : ∃ (r : Fin 50000) (q : Fin 256), i = ix2 r q := ⟨i 0, i 1, eq_ix2 i⟩
  rw [gruRows_ix2, ← gi_eq x1 x2 x3 x5 x6 x7 x8 r, ← gh_eq x0 x9 x10 r]
  unfold cell
  simp only [val_main_v62_apply, val_main_v61_apply, val_main_v60_apply, val_main_v59_apply, val_main_v57_apply,
    val_main_v56_apply, val_main_v55_apply, val_main_v54_apply, val_main_v52_apply, val_main_v50_apply, val_main_v49_apply,
    val_main_v48_apply, val_main_v47_apply, val_main_v45_apply, val_main_v43_apply, val_main_v42_apply, val_main_v41_apply,
    Ideal.addf_def, Ideal.subf_def, Ideal.mulf_def, Ideal.hostDivf_def, Ideal.hostUnary_exp_def, Ideal.hostUnary_tanh_def,
    Ideal.hostNegf_def, Ideal.negf_def]
  rw [one44, one46, one51, one53, one58, val_main_v35_apply, val_main_v36_apply, val_main_v37_apply, val_main_v38_apply,
    val_main_v39_apply, val_main_v40_apply, cut_lo, cut_mid, cut_hi, cut_lo', cut_mid', cut_hi']
  simp only [oneW, Cert.LibSpelledLogistic.spelled_logistic]

end Cert.ReferenceIdeal.RefValue

end
-- ==== Proof.KernelValue.lean ====
/-
  The tiled program's result as one function of its arguments.

  Its run is five stretches: host operations, the projection region, host operations, the gated-cell region, host
  operations. Reading the buffer contents at each boundary back through the stretch before it: the first stretch leaves
  the gathered rows, the transposed projection weights and the bias as a one-row matrix, exactly the reference's own
  gather and transpose (a change of float format is the identity over the reals); the projection region then leaves the
  reference's rectified projection; the second stretch applies to it the reference's own scatter-sum, count and
  division, and lays out the cell's weights and biases; the second region leaves the reference's cell output; and the
  last stretch is the reference's own masked blend. So the result buffer ends at the reference's last stage of the
  tiled program's arguments.
-/
import proofs.«133819_j90022514524503_1_alg».proof.Proof.KernelRun
import proofs.«133819_j90022514524503_1_alg».proof.Proof.ProjValue
import proofs.«133819_j90022514524503_1_alg».proof.Proof.GruValue
import proofs.«133819_j90022514524503_1_alg».proof.Proof.RefValue
import Idealize.ShloMosaic.Lib.StableHlo.Run
import Idealize.ShloMosaic.Lib.ValueLayout

set_option maxRecDepth 16384

noncomputable section

namespace Cert.KernelIdeal.KernelValue

open Cert.KernelIdeal Cert.KernelIdeal.Gen Cert.Lifecycle Cert.LibMlpRows
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- Equal inputs, read entry by entry, give equal rectified layers and equal gated cells. -/
theorem projRows_congr {M : ℕ} {G G' : (⟨2, ![M, 256]⟩ : Shape).Idx → EReal} {w w' : Fin 256 → Fin 256 → EReal} {b b' : Fin 256 → EReal}
    (hG : G = G') (hw : ∀ k n, w k n = w' k n) (hb : ∀ n, b n = b' n) : projRows G w b = projRows G' w' b' := by
  have e1 : w = w' := funext fun k => funext fun n => hw k n
  have e2 : b = b' := funext hb
  rw [hG, e1, e2]

theorem gruRows_congr {M : ℕ} {P P' X X' : (⟨2, ![M, 256]⟩ : Shape).Idx → EReal} {wi wi' wh wh' : Fin 256 → Fin 768 → EReal}
    {bi bi' bh bh' : Fin 768 → EReal} (hP : P = P') (hX : X = X') (hwi : ∀ k n, wi k n = wi' k n) (hbi : ∀ n, bi n = bi' n)
    (hwh : ∀ k n, wh k n = wh' k n) (hbh : ∀ n, bh n = bh' n) : gruRows P X wi bi wh bh = gruRows P' X' wi' bi' wh' bh' := by
  have e1 : wi = wi' := funext fun k => funext fun n => hwi k n
  have e2 : bi = bi' := funext hbi
  have e3 : wh = wh' := funext fun k => funext fun n => hwh k n
  have e4 : bh = bh' := funext hbh
  rw [hP, hX, e1, e2, e3, e4]

/-! ## The first stretch: the gather, the transposed weights, the bias row -/

theorem W1_arg0 : W1 m ρ c (Proc.devRef .tc main_arg0) = m ((c : Thread nD τ).loc main_arg0) := by
  show StableHlo.after hostOps0 (W0 m ρ c) (Proc.devRef .tc main_arg0) = _
  after_results

theorem W1_arg2 : W1 m ρ c (Proc.devRef .tc main_arg2) = m ((c : Thread nD τ).loc main_arg2) := by
  show StableHlo.after hostOps0 (W0 m ρ c) (Proc.devRef .tc main_arg2) = _
  after_results

theorem W1_arg4 : W1 m ρ c (Proc.devRef .tc main_arg4) = m ((c : Thread nD τ).loc main_arg4) := by
  show StableHlo.after hostOps0 (W0 m ρ c) (Proc.devRef .tc main_arg4) = _
  after_results

theorem W1_arg7 : W1 m ρ c (Proc.devRef .tc main_arg7) = m ((c : Thread nD τ).loc main_arg7) := by
  show StableHlo.after hostOps0 (W0 m ρ c) (Proc.devRef .tc main_arg7) = _
  after_results

theorem W1_arg8 : W1 m ρ c (Proc.devRef .tc main_arg8) = m ((c : Thread nD τ).loc main_arg8) := by
  show StableHlo.after hostOps0 (W0 m ρ c) (Proc.devRef .tc main_arg8) = _
  after_results

theorem W1_arg9 : W1 m ρ c (Proc.devRef .tc main_arg9) = m ((c : Thread nD τ).loc main_arg9) := by
  show StableHlo.after hostOps0 (W0 m ρ c) (Proc.devRef .tc main_arg9) = _
  after_results

theorem W1_arg10 : W1 m ρ c (Proc.devRef .tc main_arg10) = m ((c : Thread nD τ).loc main_arg10) := by
  show StableHlo.after hostOps0 (W0 m ρ c) (Proc.devRef .tc main_arg10) = _
  after_results

/-- The gathered rows are the reference's gather of the event features. -/
theorem W1_v7 : W1 m ρ c (Proc.devRef .tc main_v7)
    = Cert.ReferenceIdeal.Read.val_main_v6 (F := Ideal) (m ((c : Thread nD τ).loc main_arg1)) (m ((c : Thread nD τ).loc main_arg3)) := by
  show StableHlo.after hostOps0 (W0 m ρ c) (Proc.devRef .tc main_v7) = _
  after_results
  rfl

/-- The projection weights are the reference's transposed weights. -/
theorem W1_v9 : W1 m ρ c (Proc.devRef .tc main_v9) = Cert.ReferenceIdeal.Read.val_main_v7 (F := Ideal) (m ((c : Thread nD τ).loc main_arg5)) := by
  show StableHlo.after hostOps0 (W0 m ρ c) (Proc.devRef .tc main_v9) = _
  after_results
  rfl

/-- The projection bias as a one-row matrix. -/
theorem W1_v10 : W1 m ρ c (Proc.devRef .tc main_v10) = shapeCast S1x256 (m ((c : Thread nD τ).loc main_arg6)) shapeCasts_S256_S1x256 := by
  show StableHlo.after hostOps0 (W0 m ρ c) (Proc.devRef .tc main_v10) = _
  after_results
  rfl

/-! ## The projection region -/

theorem W2_arg0 : W2 m ρ c (Proc.devRef .tc main_arg0) = m ((c : Thread nD τ).loc main_arg0) :=
  (W2_of_ne m ρ c main_arg0 (by decide)).trans (W1_arg0 m ρ c)
theorem W2_arg2 : W2 m ρ c (Proc.devRef .tc main_arg2) = m ((c : Thread nD τ).loc main_arg2) :=
  (W2_of_ne m ρ c main_arg2 (by decide)).trans (W1_arg2 m ρ c)
theorem W2_arg4 : W2 m ρ c (Proc.devRef .tc main_arg4) = m ((c : Thread nD τ).loc main_arg4) :=
  (W2_of_ne m ρ c main_arg4 (by decide)).trans (W1_arg4 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)

/-- After the first region its result array holds the reference's rectified projection. -/
theorem W2_v11 : W2 m ρ c (Proc.devRef .tc main_v11)
    = Cert.ReferenceIdeal.Read.val_main_v12 (F := Ideal) (m ((c : Thread nD τ).loc main_arg1)) (m ((c : Thread nD τ).loc main_arg3)) (m ((c : Thread nD τ).loc main_arg5)) (m ((c : Thread nD τ).loc main_arg6)) := by
  refine (W2_arr m ρ c 3).trans ((ProjValue.final (V1 m ρ) c).trans ?_)
  rw [Cert.ReferenceIdeal.RefValue.proj_eq]
  exact projRows_congr (W1_v7 m ρ c) (fun k n => congrFun (W1_v9 m ρ c) (ix2 k n))
    (fun n => (congrFun (W1_v10 m ρ c) (ix2 (0 : Fin 1) n)).trans (shapeCast_a_1a_apply _ _ 0 n))

/-! ## The second stretch: the per-object mean, the cell's weights and biases -/

theorem W3_arg0 : W3 m ρ c (Proc.devRef .tc main_arg0) = m ((c : Thread nD τ).loc main_arg0) := by
  show StableHlo.after hostOps1 (W2 m ρ c) (Proc.devRef .tc main_arg0) = _
  after_results
  exact W2_arg0 m ρ c

theorem W3_arg4 : W3 m ρ c (Proc.devRef .tc main_arg4) = m ((c : Thread nD τ).loc main_arg4) := by
  show StableHlo.after hostOps1 (W2 m ρ c) (Proc.devRef .tc main_arg4) = _
  after_results
  exact W2_arg4 m ρ c

/-- The mean matrix is the reference's: the same scatter-sum, count and division applied to the rectified projection. -/
theorem W3_v23 : W3 m ρ c (Proc.devRef .tc main_v23)
    = Cert.ReferenceIdeal.Read.val_main_v24 (F := Ideal) (m ((c : Thread nD τ).loc main_arg1)) (m ((c : Thread nD τ).loc main_arg2)) (m ((c : Thread nD τ).loc main_arg3)) (m ((c : Thread nD τ).loc main_arg5)) (m ((c : Thread nD τ).loc main_arg6)) := by
  show StableHlo.after hostOps1 (W2 m ρ c) (Proc.devRef .tc main_v23) = _
  after_results
  rw [W2_v11, W2_arg2]
  rfl

/-- The cell's input weights are the reference's transposed weights. -/
theorem W3_v25 : W3 m ρ c (Proc.devRef .tc main_v25) = Cert.ReferenceIdeal.Read.val_main_v25 (F := Ideal) (m ((c : Thread nD τ).loc main_arg7)) := by
  show StableHlo.after hostOps1 (W2 m ρ c) (Proc.devRef .tc main_v25) = _
  after_results
  rw [W2_arg7]
  rfl

/-- The cell's hidden weights are the reference's transposed weights. -/
theorem W3_v27 : W3 m ρ c (Proc.devRef .tc main_v27) = Cert.ReferenceIdeal.Read.val_main_v30 (F := Ideal) (m ((c : Thread nD τ).loc main_arg9)) := by
  show StableHlo.after hostOps1 (W2 m ρ c) (Proc.devRef .tc main_v27) = _
  after_results
  rw [W2_arg9]
  rfl

/-- The cell's two biases as one-row matrices. -/
theorem W3_v28 : W3 m ρ c (Proc.devRef .tc main_v28) = shapeCast S1x768 (m ((c : Thread nD τ).loc main_arg8)) shapeCasts_S768_S1x768 := by
  show StableHlo.after hostOps1 (W2 m ρ c) (Proc.devRef .tc main_v28) = _
  after_results
  rw [W2_arg8]
  rfl
theorem W3_v29 : W3 m ρ c (Proc.devRef .tc main_v29) = shapeCast S1x768 (m ((c : Thread nD τ).loc main_arg10)) shapeCasts_S768_S1x768 := by
  show StableHlo.after hostOps1 (W2 m ρ c) (Proc.devRef .tc main_v29) = _
  after_results
  rw [W2_arg10]
  rfl

/-! ## The gated-cell region -/

theorem W4_arg0 : W4 m ρ c (Proc.devRef .tc main_arg0) = m ((c : Thread nD τ).loc main_arg0) :=
  (W4_arr m ρ c 1).trans ((((dat1 (V3 m ρ) c).arrAt_in 1 rfl _).trans (A_eq1 (V3 m ρ) c 1)).trans (W3_arg0 m ρ c))
theorem W4_arg4 : W4 m ρ c (Proc.devRef .tc main_arg4) = m ((c : Thread nD τ).loc main_arg4) :=
  (W4_of_ne m ρ c main_arg4 (by decide)).trans (W3_arg4 m ρ c)

/-- After the second region its result array holds the reference's cell output. -/
theorem W4_v30 : W4 m ρ c (Proc.devRef .tc main_v30)
    = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ((GruValue.final (V3 m ρ) c).trans ?_)
  rw [Cert.ReferenceIdeal.RefValue.gru_eq]
  exact gruRows_congr (W3_v23 m ρ c) (W3_arg0 m ρ c) (fun k n => congrFun (W3_v25 m ρ c) (ix2 k n))
    (fun n => (congrFun (W3_v28 m ρ c) (ix2 (0 : Fin 1) n)).trans (shapeCast_a_1a_apply _ _ 0 n))
    (fun k n => congrFun (W3_v27 m ρ c) (ix2 k n))
    (fun n => (congrFun (W3_v29 m ρ c) (ix2 (0 : Fin 1) n)).trans (shapeCast_a_1a_apply _ _ 0 n))

/-! ## The last stretch: the masked blend -/

/-- The result buffer ends at the reference's last stage of the tiled program's own arguments. -/
theorem W5_v46 : W5 m ρ c (Proc.devRef .tc main_v46)
    = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v46) = _
  after_results_simp
  rw [W4_v30, W4_arg0, W4_arg4]
  rfl

end Cert.KernelIdeal.KernelValue

end
-- ==== Proof.lean ====
/-
  One lifecycle update of the object features, tiled and untiled, compute the same function over the extended reals.

  Both programs gather an event row per edge, pass it through a linear layer and rectify it, sum the rectified rows per
  target object and divide by the edge count (at least one), run one gated recurrent cell on the mean and the object's
  old features, and blend the cell's output into the old features under a row mask. They share every step outside the
  two dense maps verbatim: the same gather, the same scatter-sums, the same division, the same mask. The tiled program
  computes the two dense maps in row blocks, 100 blocks of 5000 edges for the rectified layer and 25 blocks of 2000
  objects for the cell, with the matrix unit's product into a zero accumulator, operands narrowed to a 16-bit format,
  and the logistic function as one operation; the untiled program computes each in one piece with the host's product
  and spells the logistic function as 1 / (1 + e^(−z)). Over the extended reals the narrowing is the identity, either
  product is the same sum over the contracted coordinate, the spelled quotient is the logistic function at every
  extended real, and a row block of either map depends on the same rows of its inputs only, so the blocks tile one
  function of the whole arrays. Only that both sides are the same expression is used: no law that would need finite
  inputs.

  The three frames: the two tiled programs' are their generated frames; the untiled program's is its generated run with
  the result dropped. The idealization rewrote nothing, so there is nothing to preserve. For the equivalence the tiled
  program's run is taken with its result buffer named, read back boundary by boundary to the untiled program's last
  stage at the tiled program's arguments, and the untiled program's run ends at the same stage of arguments that agree.
-/
import proofs.«133819_j90022514524503_1_alg».proof.Defs
import proofs.«133819_j90022514524503_1_alg».proof.Proof.Gen.Kernel
import proofs.«133819_j90022514524503_1_alg».proof.Proof.Gen.Kernel.Skeleton
import proofs.«133819_j90022514524503_1_alg».proof.Proof.Gen.Kernel.Launch
import proofs.«133819_j90022514524503_1_alg».proof.Proof.Gen.Kernel.Points
import proofs.«133819_j90022514524503_1_alg».proof.Proof.Gen.Kernel.Frame
import proofs.«133819_j90022514524503_1_alg».proof.Proof.Gen.KernelIdeal
import proofs.«133819_j90022514524503_1_alg».proof.Proof.Gen.KernelIdeal.Skeleton
import proofs.«133819_j90022514524503_1_alg».proof.Proof.Gen.KernelIdeal.Launch
import proofs.«133819_j90022514524503_1_alg».proof.Proof.Gen.KernelIdeal.Points
import proofs.«133819_j90022514524503_1_alg».proof.Proof.Gen.KernelIdeal.Frame
import proofs.«133819_j90022514524503_1_alg».proof.Proof.Gen.ReferenceIdeal
import proofs.«133819_j90022514524503_1_alg».proof.Proof.Gen.ReferenceIdeal.Run
import proofs.«133819_j90022514524503_1_alg».proof.Proof.Gen.ReferenceIdeal.Read
import proofs.«133819_j90022514524503_1_alg».proof.Proof.Gen.Pre_finite_inputs
import proofs.«133819_j90022514524503_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the untiled program's last stage of the shared arguments. -/
theorem algebraic : Cert.algebraic_KernelIdeal_ReferenceIdeal := by
  intro m ρ m' ρ' _ hagree
  refine ⟨fun c => Cert.ReferenceIdeal.Read.val_main_v78 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    ?_, ?_⟩
  · exact (θ_run Cert.KernelIdeal.defs _ _).mono
      (fun r h c => ⟨(h c).1.trans (Cert.KernelIdeal.KernelValue.W5_v46 m ρ c), (h c).2⟩)
      (Cert.KernelIdeal.GenP.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v78_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
